-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4096x256 .f32) (main_arg1 : FVec F S4096x4096 .f32) (main_arg2 : FVec F S256x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S256x256 : Shape := ⟨2, ![256, 256]⟩
abbrev S512x4096 : Shape := ⟨2, ![512, 4096]⟩
abbrev S512x256 : Shape := ⟨2, ![512, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S4096x256, .f32⟩
  | .local _ .vmem, ⟨0, _⟩ => ⟨S4096x256, .f32⟩
  | .local _ .vmem, ⟨1, _⟩ => ⟨S4096x256, .f32⟩
  | .local _ .vmem, ⟨2, _⟩ => ⟨S512x4096, .f32⟩
  | .local _ .vmem, ⟨3, _⟩ => ⟨S512x4096, .f32⟩
  | .local _ .vmem, ⟨4, _⟩ => ⟨S256x256, .f32⟩
  | .local _ .vmem, ⟨5, _⟩ => ⟨S512x256, .f32⟩
  | .local _ .vmem, ⟨6, _⟩ => ⟨S512x256, .f32⟩
  | .local _ .vmem, ⟨7, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c4096_i32_12 : BitVec 32 := 4096#32
  let v17 : BitVec 32 := Scalar.muli arg1 c4096_i32_12
  let v18 : Index := Scalar.indexCast v17
  let c0_13 : Index := 0#32
  ![v18.toNat, 0]
def k0_off2 (i : grid0.Coords) : Fin 2 → Nat :=
  let arg1 : BitVec 32 := BitVec.ofNat 32 (i 1).val
  let c4096_i32 : BitVec 32 := 4096#32
  let v4 : BitVec 32 := Scalar.muli arg1 c4096_i32
  let v5 : Index := Scalar.indexCast v4
  let c0_2 : Index := 0#32
  ![v5.toNat, 0]
def k0_cond2 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def k0_cond3 (i : grid0.Coords) : BitVec 1 :=
  let arg1 : BitVec 32 := BitVec.ofNat 32 (i 1).val
  let c0_i32_5 : BitVec 32 := 0#32
  let v11 : BitVec 1 := Scalar.cmpi .sgt arg1 c0_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  inb_S512x4096_S512x4096_0_0 : ∀ a, (![0, 0] : Fin 2 → Nat) a + S512x4096.size a ≤ S512x4096.size a
  h_S512x4096 : 0 < S512x4096.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  dot_S4096x256_S256x256_S4096x256_1_0_0_1_n_n_wf : DotDims.WF S4096x256 S256x256 S4096x256 [1] [0] [0] [1] [] []
  dot_S512x4096_S4096x256_S512x256_1_0_0_1_n_n_wf : DotDims.WF S512x4096 S4096x256 S512x256 [1] [0] [0] [1] [] []
  hrank0 : 0 < grid0.rank
  k0_off1_inb : ∀ i : grid0.Coords, ∀ (k0_h1 : k0_cond1 i = 1#1), ∀ a, (k0_off1 i) a + S4096x256.size a ≤ S4096x256.size a
  k0_off2_inb : ∀ i : grid0.Coords, ∀ a, (k0_off2 i) a + S4096x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .f32 = 32 ∨ (Rect.block (s := S4096x256) S512x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S4096x256, .f32⟩
  | .hbm, ⟨4, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.WordBody.lean ====
/-
  The kernel body run at a grid point. The grid has eight points, one per block of 512 rows of the adjacency matrix.
  At the first point the body multiplies the feature matrix x (4096 x 256) by the weights W (256 x 256) and keeps the
  product in a buffer that lives across points; at every point it multiplies the point's 512 x 4096 block of the
  adjacency matrix by that kept product and stores the 512 x 256 result block. Two Hoare triples say this, one for the
  first point and one for the later ones, for any float instance.
-/
import proofs.«135409_g67791763800670_cont_sun_m_1117_6_alg».proof.Proof.Gen.Kernel.Frame
import proofs.«135409_g67791763800670_cont_sun_m_1117_6_alg».proof.Proof.Gen.Kernel.Skeleton
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer stores and loads

The body moves whole buffers only: every rectangle it stores or loads through is the full shape at offset zero,
the offsets into the carried buffer being `k · 4096` with `k` the second grid coordinate, which is always `0`. -/

theorem zero2 : (![0, 0] : Fin 2 → Nat) = fun _ => 0 := funext fun a => by fin_cases a <;> rfl

/-- The second grid axis has one point. -/
theorem coord1_zero (i : grid0.Coords) : (i 1).val = 0 := by
  have h : (i 1).val < 1 := (i 1).isLt
  omega

/-- The row offset `k · 4096` of the product's slice in the carried buffer is `0`: where it is stored, -/
theorem off1_zero (i : grid0.Coords) : k0_off1 i = fun _ => 0 := by
  unfold k0_off1; simp only [coord1_zero i]; funext a; fin_cases a <;> rfl

/-- and where it is loaded. -/
theorem off2_zero (i : grid0.Coords) : k0_off2 i = fun _ => 0 := by
  unfold k0_off2; simp only [coord1_zero i]; funext a; fin_cases a <;> rfl

section Whole
variable {sig' : RefSig} {κ : Kind} {sp : Space} {S : Shape} {e : EltTy} {Val : EltTy → Type} [∀ e, Nonempty (Val e)]

/-- One store through the full shape leaves its payload, whatever the buffer held. -/
theorem read_store_whole (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨(⟨Rect.unit off S.size inb, w⟩ : View.Piece Val S e), List.mem_singleton_self _, View.mem_set_unit_zero h inb y⟩),
    View.canon_unit_zero h]

/-- A load through the full shape after one store through the full shape reads the stored payload. -/
theorem load_store_whole (v : View sig' κ sp S e) {off off' : Fin S.rank → Nat} (h : off = fun _ => 0) (h' : off' = fun _ => 0)
    (inb : ∀ a, off a + S.size a ≤ S.size a) (inb' : ∀ a, off' a + S.size a ≤ S.size a) (w : S.Idx → Val e) :
    v.readCov [(⟨Rect.unit off S.size inb, w⟩ : View.Piece Val S e)] (Rect.unit off' S.size inb').toLoadRect = w := by
  subst h; subst h'; exact View.readCov_unit_zero v rfl _ w

end Whole

/-! ## The body, run in its two cases

At the first grid point the body forms the product `x · W` of its first and third blocks, stores it in the buffer it
carries, and stores the product of the adjacency block with it in the output block; at every later point it finds
`x · W` in the carried buffer and stores the adjacency block's product with it. -/

set_option maxHeartbeats 1000000 in
/-- The first point: the carried buffer, found at anything, is left at `x0 · x2`, the output block at `x1 · (x0 · x2)`. -/
theorem run_first (c : Dev nD) (i : grid0.Coords) (arg2 : Memref sig .tc .vmem S4096x256 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S512x256 .f32) (harg5 : arg5.IsWhole) (arg6 : Memref sig .tc .vmem S4096x256 .f32) (harg6 : arg6.IsWhole)
    (hc1 : k0_cond1 i = 1#1) (hc2 : k0_cond2 i = 1#1) (hc3 : ¬ k0_cond3 i = 1#1)
    (x0 : Vec F S4096x256 .f32) (x1 : Vec F S512x4096 .f32) (x2 : Vec F S256x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay2 x1 (k0_pay1 x0 x2)) ∗ owns (c : Thread nD τ) arg6 fullShare (k0_pay1 x0 x2)) -∗ K ⟨⟩))
          ⊢ wp frame (wpE (defs₀ (F := F)) Variants.none c none) E (cc0__gcn_body i arg2 harg2 arg3 harg3 arg4 harg4 arg5 harg5 arg6 harg6) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [read_store_whole _ _ zero2]
      sl_unfold_run_names
      rw [load_store_whole _ (off1_zero i) (off2_zero i)]
      simp only [View.readAt_eq_ld, harg2.read_unread, harg3.read_unread, harg4.read_unread, View.ld_unit_zero (S := S4096x256) zero2,
        View.ld_unit_zero (S := S512x4096) zero2, View.ld_unit_zero (S := S256x256) zero2]
    iexists _; isplitr; swap; · iexact HS0
    ipureintro
    sl_unfold_run_names
    rw [read_store_whole _ _ (off1_zero i)]
    simp only [View.readAt_eq_ld, harg2.read_unread, harg4.read_unread, View.ld_unit_zero (S := S4096x256) zero2,
      View.ld_unit_zero (S := S256x256) zero2]

set_option maxHeartbeats 1000000 in
/-- A later point: the carried buffer, found at `s`, is left as it was, the output block at `x1 · s`. -/
theorem run_later (c : Dev nD) (i : grid0.Coords) (arg2 : Memref sig .tc .vmem S4096x256 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S512x256 .f32) (harg5 : arg5.IsWhole) (arg6 : Memref sig .tc .vmem S4096x256 .f32) (harg6 : arg6.IsWhole)
    (hc1 : ¬ k0_cond1 i = 1#1) (hc2 : k0_cond2 i = 1#1) (hc3 : ¬ k0_cond3 i = 1#1)
    (x0 : Vec F S4096x256 .f32) (x1 : Vec F S512x4096 .f32) (x2 : Vec F S256x256 .f32) (s : Vec F S4096x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare s
            ∗ (iprop(owns (c : Thread nD τ) arg2 fullShare x0 ∗ owns (c : Thread nD τ) arg3 fullShare x1 ∗ owns (c : Thread nD τ) arg4 fullShare x2 ∗ owns (c : Thread nD τ) arg5 fullShare (k0_pay2 x1 s) ∗ owns (c : Thread nD τ) arg6 fullShare s) -∗ K ⟨⟩))
          ⊢ wp frame (wpE (defs₀ (F := F)) Variants.none c none) E (cc0__gcn_body i arg2 harg2 arg3 harg3 arg4 harg4 arg5 harg5 arg6 harg6) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [read_store_whole _ _ zero2]
      simp only [View.readAt_eq_ld, harg3.read_unread, harg6.read_unread, View.ld_unit_zero (S := S512x4096) zero2,
        View.ld_unit_zero (S := S4096x256) (off2_zero i)]
    iexists _; isplitr; · ipureintro; exact harg6.read_unread _
    iexact HS0

end Cert.Kernel.Body

end
-- ==== Proof.WordFrame.lean ====
/-
  The launch of the one pallas_call around the body's two triples: what every staging buffer and the carried buffer hold
  point by point, the body's obligation at every point, and the run of the whole program. After the first point the
  carried buffer holds the product x · W for good, and the output block of point t is (block t of adj) · (x · W).
-/
import proofs.«135409_g67791763800670_cont_sun_m_1117_6_alg».proof.Proof.WordBody

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

/-- The product x · W is formed at the first point only; -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- the output block is stored (never added to) at every point: the contraction axis has one block. -/
theorem stores_all : ∀ t : Fin cfg0.N, k0_cond2 (grid0.coords t) = 1#1 :=
  (by decide +kernel : ∀ t : Fin grid0.N, k0_cond2 (grid0.coords t) = 1#1)
theorem adds_never : ∀ t : Fin cfg0.N, ¬ k0_cond3 (grid0.coords t) = 1#1 :=
  (by decide +kernel : ∀ t : Fin grid0.N, ¬ k0_cond3 (grid0.coords t) = 1#1)

/-- No window is idle at any point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-! ## The staging buffers at a point, and the carried buffer -/

abbrev stg0 (t : Fin cfg0.N) : Memref sig .tc .vmem S4096x256 .f32 := win0_0.stage (cfg0.slots t 0)
abbrev stg1 (t : Fin cfg0.N) : Memref sig .tc .vmem S512x4096 .f32 := win0_1.stage (cfg0.slots t 1)
abbrev stg2 (t : Fin cfg0.N) : Memref sig .tc .vmem S256x256 .f32 := win0_2.stage (cfg0.slots t 2)
abbrev stg3 (t : Fin cfg0.N) : Memref sig .tc .vmem S512x256 .f32 := win0_3.stage (cfg0.slots t 3)
/-- The buffer the kernel keeps x · W in from the first point on. -/
abbrev kept : Memref sig .tc .vmem S4096x256 .f32 := Memref.whole cc0_scratch0

/-- What the launch hands the region besides the windows: the carried buffer at anything, and the generator register. -/
theorem region_inv_eq (c : Dev nD) :
    (Pipeline.ΦA spec0 c : sProp 𝕄)
      = iprop(iprop((∃ d, owns (c : Thread nD τ) kept fullShare d)) ∗ (∃ r, prngReg c r)) := by
  unfold Pipeline.ΦA; rw [scopedRest0_eq]; simp only [kept, owns_whole]; try rfl

/-! ## What the buffers hold, point by point -/

/-- x · W, as the first point computes it from its blocks of x and W. -/
def support (c : Dev nD) : Vec F S4096x256 .f32 := k0_pay1 (iblk m c 0 t0_0) (iblk m c 2 t0_0)

/-- The output block of point `t`: the point's block of adj times x · W. -/
def outBlock (c : Dev nD) (t : Fin cfg0.N) : Vec F S512x256 .f32 := k0_pay2 (iblk m c 1 t) (support m c)

/-- The invariant before point `n`: before the first the carried buffer holds anything, afterwards x · W. -/
def inv (c : Dev nD) : ℕ → sProp 𝕄
  | 0 => Pipeline.ΦA spec0 c
  | _ + 1 => iprop(iprop(owns (c : Thread nD τ) kept fullShare (support m c)) ∗ (∃ r, prngReg c r))

theorem inv_pos (c : Dev nD) (n : ℕ) (hn : n ≠ 0) :
    inv m c n = iprop(iprop(owns (c : Thread nD τ) kept fullShare (support m c)) ∗ (∃ r, prngReg c r)) := by
  cases n with
  | zero => exact absurd rfl hn
  | succ n => rfl

/-- The proof data of the pipeline on core `c`: the arrays as launched; after the body each input's buffer at its
    block, the output's at `outBlock`; the invariant `inv`; nothing owed to other cores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock m c t
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlock m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: at the first it is handed the carried buffer at anything and leaves x · W in it; at a later
    one it finds x · W there and leaves it; either way the output buffer ends at `outBlock`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = inv m c (t.val + 1) from rfl,
    show (dats m 0 c).Φ t.castSucc = inv m c t.val from rfl, inv_pos m c (t.val + 1) (Nat.succ_ne_zero _)]
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  rw [show (dats m 0 c).leavesExact 3 t = owns (c : Thread nD τ) (stg3 t) fullShare ((dats m 0 c).after 3 t) from by
    unfold Dat.leavesExact; rw [live3 t], after3]
  by_cases hz : t.val = 0
  · have ht : t = t0_0 := Fin.ext hz
    subst ht
    rw [show inv m c (t0_0 : Fin cfg0.N).val = Pipeline.ΦA spec0 c from rfl, region_inv_eq]
    iintro ⟨⟨HS, Hg⟩, Ho, ⟨%d0, H0⟩, ⟨%d1, H1⟩, ⟨%d2, H2⟩, ⟨%d3, H3⟩⟩
    iapply ((run_first c (grid0.coords t0_0) _ _ _ _ _ _ _ _ _ _ ((first_iff t0_0).mpr rfl) (stores_all t0_0) (adds_never t0_0) (iblk m c 0 t0_0) (iblk m c 1 t0_0) (iblk m c 2 t0_0)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexact H2
    iexact H3
  · rw [inv_pos m c t.val hz]
    iintro ⟨⟨HS, Hg⟩, Ho, ⟨%d0, H0⟩, ⟨%d1, H1⟩, ⟨%d2, H2⟩, ⟨%d3, H3⟩⟩
    iapply ((run_later c (grid0.coords t) _ _ _ _ _ _ _ _ _ _ (fun h => hz ((first_iff t).mp h)) (stores_all t) (adds_never t) (iblk m c 0 t) (iblk m c 1 t) (iblk m c 2 t) (support m c)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = Pipeline.ΦA spec0 c from rfl]

/-- After the last point what the carried buffer holds is forgotten again: it holds something. -/
theorem inv_out (c : Dev nD) : (dats m 0 c).Φ (Fin.last cfg0.N) ⊢ Pipeline.ΦA spec0 c := by
  rw [show (dats m 0 c).Φ (Fin.last cfg0.N) = inv m c (Fin.last cfg0.N).val from rfl,
    inv_pos m c _ (by rw [Fin.val_last]; have : cfg0.N = 8 := N_0; omega), region_inv_eq]
  iintro ⟨HS, Hg⟩
  isplitl [HS]
  · iexists _; iexact HS
  iexact Hg

/-! ## The run and the frame -/

set_option backward.isDefEq.respectTransparency.types false in
/-- Every weakly fair execution of the program terminates; the output array ends at what the write-backs of the eight
    output blocks leave, every argument array as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The program runs and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.IdealBody.lean ====
/-
  The kernel body run at a grid point. The grid has eight points, one per block of 512 rows of the adjacency matrix.
  At the first point the body multiplies the feature matrix x (4096 x 256) by the weights W (256 x 256) and keeps the
  product in a buffer that lives across points; at every point it multiplies the point's 512 x 4096 block of the
  adjacency matrix by that kept product and stores the 512 x 256 result block. Two Hoare triples say this, one for the
  first point and one for the later ones, for any float instance.
-/
import proofs.«135409_g67791763800670_cont_sun_m_1117_6_alg».proof.Proof.Gen.KernelIdeal.Frame
import proofs.«135409_g67791763800670_cont_sun_m_1117_6_alg».proof.Proof.Gen.KernelIdeal.Skeleton
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer stores and loads

The body moves whole buffers only: every rectangle it stores or loads through is the full shape at offset zero,
the offsets into the carried buffer being `k · 4096` with `k` the second grid coordinate, which is always `0`. -/

theorem zero2 : (![0, 0] : Fin 2 → Nat) = fun _ => 0 := funext fun a => by fin_cases a <;> rfl

/-- The second grid axis has one point. -/
theorem coord1_zero (i : grid0.Coords) : (i 1).val = 0 := by
  have h : (i 1).val < 1 := (i 1).isLt
  omega

/-- The row offset `k · 4096` of the product's slice in the carried buffer is `0`: where it is stored, -/
theorem off1_zero (i : grid0.Coords) : k0_off1 i = fun _ => 0 := by
  unfold k0_off1; simp only [coord1_zero i]; funext a; fin_cases a <;> rfl

/-- and where it is loaded. -/
theorem off2_zero (i : grid0.Coords) : k0_off2 i = fun _ => 0 := by
  unfold k0_off2; simp only [coord1_zero i]; funext a; fin_cases a <;> rfl

section Whole
variable {sig' : RefSig} {κ : Kind} {sp : Space} {S : Shape} {e : EltTy} {Val : EltTy → Type} [∀ e, Nonempty (Val e)]

/-- One store through the full shape leaves its payload, whatever the buffer held. -/
theorem read_store_whole (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨(⟨Rect.unit off S.size inb, w⟩ : View.Piece Val S e), List.mem_singleton_self _, View.mem_set_unit_zero h inb y⟩),
    View.canon_unit_zero h]

/-- A load through the full shape after one store through the full shape reads the stored payload. -/
theorem load_store_whole (v : View sig' κ sp S e) {off off' : Fin S.rank → Nat} (h : off = fun _ => 0) (h' : off' = fun _ => 0)
    (inb : ∀ a, off a + S.size a ≤ S.size a) (inb' : ∀ a, off' a + S.size a ≤ S.size a) (w : S.Idx → Val e) :
    v.readCov [(⟨Rect.unit off S.size inb, w⟩ : View.Piece Val S e)] (Rect.unit off' S.size inb').toLoadRect = w := by
  subst h; subst h'; exact View.readCov_unit_zero v rfl _ w

end Whole

/-! ## The body, run in its two cases

At the first grid point the body forms the product `x · W` of its first and third blocks, stores it in the buffer it
carries, and stores the product of the adjacency block with it in the output block; at every later point it finds
`x · W` in the carried buffer and stores the adjacency block's product with it. -/

set_option maxHeartbeats 1000000 in
/-- The first point: the carried buffer, found at anything, is left at `x0 · x2`, the output block at `x1 · (x0 · x2)`. -/
theorem run_first (c : Dev nD) (i : grid0.Coords) (arg2 : Memref sig .tc .vmem S4096x256 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S512x256 .f32) (harg5 : arg5.IsWhole) (arg6 : Memref sig .tc .vmem S4096x256 .f32) (harg6 : arg6.IsWhole)
    (hc1 : k0_cond1 i = 1#1) (hc2 : k0_cond2 i = 1#1) (hc3 : ¬ k0_cond3 i = 1#1)
    (x0 : Vec F S4096x256 .f32) (x1 : Vec F S512x4096 .f32) (x2 : Vec F S256x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay2 x1 (k0_pay1 x0 x2)) ∗ owns (c : Thread nD τ) arg6 fullShare (k0_pay1 x0 x2)) -∗ K ⟨⟩))
          ⊢ wp frame (wpE (defs₀ (F := F)) Variants.none c none) E (cc0__gcn_body i arg2 harg2 arg3 harg3 arg4 harg4 arg5 harg5 arg6 harg6) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [read_store_whole _ _ zero2]
      sl_unfold_run_names
      rw [load_store_whole _ (off1_zero i) (off2_zero i)]
      simp only [View.readAt_eq_ld, harg2.read_unread, harg3.read_unread, harg4.read_unread, View.ld_unit_zero (S := S4096x256) zero2,
        View.ld_unit_zero (S := S512x4096) zero2, View.ld_unit_zero (S := S256x256) zero2]
    iexists _; isplitr; swap; · iexact HS0
    ipureintro
    sl_unfold_run_names
    rw [read_store_whole _ _ (off1_zero i)]
    simp only [View.readAt_eq_ld, harg2.read_unread, harg4.read_unread, View.ld_unit_zero (S := S4096x256) zero2,
      View.ld_unit_zero (S := S256x256) zero2]

set_option maxHeartbeats 1000000 in
/-- A later point: the carried buffer, found at `s`, is left as it was, the output block at `x1 · s`. -/
theorem run_later (c : Dev nD) (i : grid0.Coords) (arg2 : Memref sig .tc .vmem S4096x256 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S512x256 .f32) (harg5 : arg5.IsWhole) (arg6 : Memref sig .tc .vmem S4096x256 .f32) (harg6 : arg6.IsWhole)
    (hc1 : ¬ k0_cond1 i = 1#1) (hc2 : k0_cond2 i = 1#1) (hc3 : ¬ k0_cond3 i = 1#1)
    (x0 : Vec F S4096x256 .f32) (x1 : Vec F S512x4096 .f32) (x2 : Vec F S256x256 .f32) (s : Vec F S4096x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare s
            ∗ (iprop(owns (c : Thread nD τ) arg2 fullShare x0 ∗ owns (c : Thread nD τ) arg3 fullShare x1 ∗ owns (c : Thread nD τ) arg4 fullShare x2 ∗ owns (c : Thread nD τ) arg5 fullShare (k0_pay2 x1 s) ∗ owns (c : Thread nD τ) arg6 fullShare s) -∗ K ⟨⟩))
          ⊢ wp frame (wpE (defs₀ (F := F)) Variants.none c none) E (cc0__gcn_body i arg2 harg2 arg3 harg3 arg4 harg4 arg5 harg5 arg6 harg6) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [read_store_whole _ _ zero2]
      simp only [View.readAt_eq_ld, harg3.read_unread, harg6.read_unread, View.ld_unit_zero (S := S512x4096) zero2,
        View.ld_unit_zero (S := S4096x256) (off2_zero i)]
    iexists _; isplitr; · ipureintro; exact harg6.read_unread _
    iexact HS0

end Cert.KernelIdeal.Body

end
-- ==== Proof.IdealFrame.lean ====
/-
  The launch of the one pallas_call around the body's two triples: what every staging buffer and the carried buffer hold
  point by point, the body's obligation at every point, and the run of the whole program. After the first point the
  carried buffer holds the product x · W for good, and the output block of point t is (block t of adj) · (x · W).
-/
import proofs.«135409_g67791763800670_cont_sun_m_1117_6_alg».proof.Proof.IdealBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

/-- The product x · W is formed at the first point only; -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- the output block is stored (never added to) at every point: the contraction axis has one block. -/
theorem stores_all : ∀ t : Fin cfg0.N, k0_cond2 (grid0.coords t) = 1#1 :=
  (by decide +kernel : ∀ t : Fin grid0.N, k0_cond2 (grid0.coords t) = 1#1)
theorem adds_never : ∀ t : Fin cfg0.N, ¬ k0_cond3 (grid0.coords t) = 1#1 :=
  (by decide +kernel : ∀ t : Fin grid0.N, ¬ k0_cond3 (grid0.coords t) = 1#1)

/-- No window is idle at any point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-! ## The staging buffers at a point, and the carried buffer -/

abbrev stg0 (t : Fin cfg0.N) : Memref sig .tc .vmem S4096x256 .f32 := win0_0.stage (cfg0.slots t 0)
abbrev stg1 (t : Fin cfg0.N) : Memref sig .tc .vmem S512x4096 .f32 := win0_1.stage (cfg0.slots t 1)
abbrev stg2 (t : Fin cfg0.N) : Memref sig .tc .vmem S256x256 .f32 := win0_2.stage (cfg0.slots t 2)
abbrev stg3 (t : Fin cfg0.N) : Memref sig .tc .vmem S512x256 .f32 := win0_3.stage (cfg0.slots t 3)
/-- The buffer the kernel keeps x · W in from the first point on. -/
abbrev kept : Memref sig .tc .vmem S4096x256 .f32 := Memref.whole cc0_scratch0

/-- What the launch hands the region besides the windows: the carried buffer at anything, and the generator register. -/
theorem region_inv_eq (c : Dev nD) :
    (Pipeline.ΦA spec0 c : sProp 𝕄)
      = iprop(iprop((∃ d, owns (c : Thread nD τ) kept fullShare d)) ∗ (∃ r, prngReg c r)) := by
  unfold Pipeline.ΦA; rw [scopedRest0_eq]; simp only [kept, owns_whole]; try rfl

/-! ## What the buffers hold, point by point -/

/-- x · W, as the first point computes it from its blocks of x and W. -/
def support (c : Dev nD) : Vec F S4096x256 .f32 := k0_pay1 (iblk m c 0 t0_0) (iblk m c 2 t0_0)

/-- The output block of point `t`: the point's block of adj times x · W. -/
def outBlock (c : Dev nD) (t : Fin cfg0.N) : Vec F S512x256 .f32 := k0_pay2 (iblk m c 1 t) (support m c)

/-- The invariant before point `n`: before the first the carried buffer holds anything, afterwards x · W. -/
def inv (c : Dev nD) : ℕ → sProp 𝕄
  | 0 => Pipeline.ΦA spec0 c
  | _ + 1 => iprop(iprop(owns (c : Thread nD τ) kept fullShare (support m c)) ∗ (∃ r, prngReg c r))

theorem inv_pos (c : Dev nD) (n : ℕ) (hn : n ≠ 0) :
    inv m c n = iprop(iprop(owns (c : Thread nD τ) kept fullShare (support m c)) ∗ (∃ r, prngReg c r)) := by
  cases n with
  | zero => exact absurd rfl hn
  | succ n => rfl

/-- The proof data of the pipeline on core `c`: the arrays as launched; after the body each input's buffer at its
    block, the output's at `outBlock`; the invariant `inv`; nothing owed to other cores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock m c t
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlock m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: at the first it is handed the carried buffer at anything and leaves x · W in it; at a later
    one it finds x · W there and leaves it; either way the output buffer ends at `outBlock`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = inv m c (t.val + 1) from rfl,
    show (dats m 0 c).Φ t.castSucc = inv m c t.val from rfl, inv_pos m c (t.val + 1) (Nat.succ_ne_zero _)]
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  rw [show (dats m 0 c).leavesExact 3 t = owns (c : Thread nD τ) (stg3 t) fullShare ((dats m 0 c).after 3 t) from by
    unfold Dat.leavesExact; rw [live3 t], after3]
  by_cases hz : t.val = 0
  · have ht : t = t0_0 := Fin.ext hz
    subst ht
    rw [show inv m c (t0_0 : Fin cfg0.N).val = Pipeline.ΦA spec0 c from rfl, region_inv_eq]
    iintro ⟨⟨HS, Hg⟩, Ho, ⟨%d0, H0⟩, ⟨%d1, H1⟩, ⟨%d2, H2⟩, ⟨%d3, H3⟩⟩
    iapply ((run_first c (grid0.coords t0_0) _ _ _ _ _ _ _ _ _ _ ((first_iff t0_0).mpr rfl) (stores_all t0_0) (adds_never t0_0) (iblk m c 0 t0_0) (iblk m c 1 t0_0) (iblk m c 2 t0_0)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexact H2
    iexact H3
  · rw [inv_pos m c t.val hz]
    iintro ⟨⟨HS, Hg⟩, Ho, ⟨%d0, H0⟩, ⟨%d1, H1⟩, ⟨%d2, H2⟩, ⟨%d3, H3⟩⟩
    iapply ((run_later c (grid0.coords t) _ _ _ _ _ _ _ _ _ _ (fun h => hz ((first_iff t).mp h)) (stores_all t) (adds_never t) (iblk m c 0 t) (iblk m c 1 t) (iblk m c 2 t) (support m c)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = Pipeline.ΦA spec0 c from rfl]

/-- After the last point what the carried buffer holds is forgotten again: it holds something. -/
theorem inv_out (c : Dev nD) : (dats m 0 c).Φ (Fin.last cfg0.N) ⊢ Pipeline.ΦA spec0 c := by
  rw [show (dats m 0 c).Φ (Fin.last cfg0.N) = inv m c (Fin.last cfg0.N).val from rfl,
    inv_pos m c _ (by rw [Fin.val_last]; have : cfg0.N = 8 := N_0; omega), region_inv_eq]
  iintro ⟨HS, Hg⟩
  isplitl [HS]
  · iexists _; iexact HS
  iexact Hg

/-! ## The run and the frame -/

set_option backward.isDefEq.respectTransparency.types false in
/-- Every weakly fair execution of the program terminates; the output array ends at what the write-backs of the eight
    output blocks leave, every argument array as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The program runs and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.IdealValue.lean ====
/-
  What the idealized kernel computes. At the exact instance a matrix product into a zero accumulator is a plain sum of
  products, so the carried buffer holds (x · W)[k, n] = ∑ j, x[k, j] * W[j, n], and the output block of grid point t holds
  ∑ k, adj[512 t + r, k] * (x · W)[k, n] at (r, n). That is block t of ONE function of the three argument arrays, the
  reference's own adj · (x · W) read at an index; the eight blocks tile the result array, so the array ends holding it.
-/
import proofs.«135409_g67791763800670_cont_sun_m_1117_6_alg».proof.Proof.IdealFrame
import proofs.«135409_g67791763800670_cont_sun_m_1117_6_alg».proof.Proof.Gen.ReferenceIdeal.Read
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body

/-! ## The block product at an index

Entry (r, n) of (a 512 x 4096 block) · (a 4096 x 256 matrix) is the sum over k of a[r, k] * s[k, n]: the contraction index
has one axis, of extent 4096. -/

theorem blk_lhs_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem blk_lhs_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem blk_rhs_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem blk_rhs_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- Row r of the block, column k. -/
abbrev rowAt (i : S512x256.Idx) (k : Fin 4096) : S512x4096.Idx := fun a => match a with
  | ⟨0, _⟩ => ⟨(i 0).val, (i 0).isLt⟩
  | ⟨1, _⟩ => ⟨k.val, k.isLt⟩
/-- Row k of the right factor, column n. -/
abbrev colAt (i : S512x256.Idx) (k : Fin 4096) : S4096x256.Idx := fun a => match a with
  | ⟨0, _⟩ => ⟨k.val, k.isLt⟩
  | ⟨1, _⟩ => ⟨(i 1).val, (i 1).isLt⟩

theorem block_product_apply (a : Vec Ideal S512x4096 .f32) (s : Vec Ideal S4096x256 .f32) (i : S512x256.Idx) :
    k0_pay2 (F := Ideal) a s i = ∑ k : Fin 4096, a (rowAt i k) * s (colAt i k) := by
  unfold k0_pay2
  simp only [matmul]
  rw [Ideal.matmul_constant_zero_apply, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx i ((contrEquiv1 dot_S512x4096_S4096x256_S512x256_1_0_0_1_n_n 4096 rfl rfl).symm k) = rowAt i k := funext fun a => Fin.ext (by
    match a with
    | ⟨0, _⟩ => exact blk_lhs_0 _ _
    | ⟨1, _⟩ => exact (blk_lhs_1 _ _).trans hk)
  have er : dot_S512x4096_S4096x256_S512x256_1_0_0_1_n_n.rhsIdx i ((contrEquiv1 dot_S512x4096_S4096x256_S512x256_1_0_0_1_n_n 4096 rfl rfl).symm k) = colAt i k := funext fun a => Fin.ext (by
    match a with
    | ⟨0, _⟩ => exact (blk_rhs_0 _ _).trans hk
    | ⟨1, _⟩ => exact blk_rhs_1 _ _)
  rw [el, er]

variable (m : (ℓ : Loc nD τ sig) → Buf (Elt Ideal) ℓ) (ρ : Dev nD → PrngReg)

/-! ## The argument arrays, and the result as one function of them -/

abbrev xArr (c : Dev nD) : Vec Ideal S4096x256 .f32 := V m c main_arg0
abbrev adjArr (c : Dev nD) : Vec Ideal S4096x4096 .f32 := V m c main_arg1
abbrev wArr (c : Dev nD) : Vec Ideal S256x256 .f32 := V m c main_arg2

/-- adj · (x · W), as the reference's two products of the argument arrays. -/
def result (c : Dev nD) : Vec Ideal S4096x256 .f32 :=
  Cert.ReferenceIdeal.Read.val_main_v1 (F := Ideal) (xArr m c) (adjArr m c) (wArr m c)

/-! ## The blocks the body reads are the arrays' -/

/-- The index maps over the grid: the adjacency block and the output block of point t are both block row t, and every
    other block index is zero. -/
theorem idx_facts : ∀ t : Fin cfg0.N, win0_1.index t (0 : Fin 2) = t.val ∧ win0_1.index t (1 : Fin 2) = 0
    ∧ win0_3.index t (0 : Fin 2) = t.val ∧ win0_3.index t (1 : Fin 2) = 0 :=
  (by decide +kernel : ∀ t : Fin grid0.N, _)

theorem idx_first : win0_0.index t0_0 (0 : Fin 2) = 0 ∧ win0_0.index t0_0 (1 : Fin 2) = 0
    ∧ win0_2.index t0_0 (0 : Fin 2) = 0 ∧ win0_2.index t0_0 (1 : Fin 2) = 0 := by decide +kernel

/-- The first point's block of x is all of x, -/
theorem x_block (c : Dev nD) : (iblk m c 0 t0_0 : Vec Ideal S4096x256 .f32) = xArr m c := by
  obtain ⟨e0, e1, -, -⟩ := idx_first
  funext y
  unfold iblk
  rw [View.read_apply]
  show V m c main_arg0 _ = V m c main_arg0 y
  congr 1
  funext a
  apply Fin.ext
  match a with
  | ⟨0, _⟩ => show win0_0.index t0_0 (0 : Fin 2) * 4096 + 1 * (y 0).val = (y 0).val; rw [e0]; omega
  | ⟨1, _⟩ => show win0_0.index t0_0 (1 : Fin 2) * 256 + 1 * (y 1).val = (y 1).val; rw [e1]; omega

/-- and its block of W all of W. -/
theorem w_block (c : Dev nD) : (iblk m c 2 t0_0 : Vec Ideal S256x256 .f32) = wArr m c := by
  obtain ⟨-, -, e0, e1⟩ := idx_first
  funext y
  unfold iblk
  rw [View.read_apply]
  show V m c main_arg2 _ = V m c main_arg2 y
  congr 1
  funext a
  apply Fin.ext
  match a with
  | ⟨0, _⟩ => show win0_2.index t0_0 (0 : Fin 2) * 256 + 1 * (y 0).val = (y 0).val; rw [e0]; omega
  | ⟨1, _⟩ => show win0_2.index t0_0 (1 : Fin 2) * 256 + 1 * (y 1).val = (y 1).val; rw [e1]; omega

/-- Entry (r, k) of point t's adjacency block is adj[512 t + r, k]. -/
theorem adj_block_at (c : Dev nD) (t : Fin cfg0.N) (y : S512x4096.Idx) (i : S4096x4096.Idx)
    (h0 : (i 0).val = 512 * t.val + (y 0).val) (h1 : (i 1).val = (y 1).val) :
    (iblk m c 1 t : Vec Ideal S512x4096 .f32) y = adjArr m c i := by
  obtain ⟨e0, e1, -, -⟩ := idx_facts t
  unfold iblk
  rw [View.read_apply]
  show V m c main_arg1 _ = V m c main_arg1 i
  congr 1
  funext a
  apply Fin.ext
  match a with
  | ⟨0, _⟩ => show win0_1.index t (0 : Fin 2) * 512 + 1 * (y 0).val = (i 0).val; rw [e0]; omega
  | ⟨1, _⟩ => show win0_1.index t (1 : Fin 2) * 4096 + 1 * (y 1).val = (i 1).val; rw [e1]; omega

/-- The two programs' records of the product x · W name the same contraction. -/
theorem xw_dims : dot_S4096x256_S256x256_S4096x256_1_0_0_1_n_n = Cert.ReferenceIdeal.dot_S4096x256_S256x256_S4096x256_1_0_0_1_n_n := rfl

/-- What the kernel carries across points is the reference's x · W. -/
theorem support_eq (c : Dev nD) :
    support m c = Cert.ReferenceIdeal.Read.val_main_v0 (F := Ideal) (xArr m c) (wArr m c) := by
  unfold support k0_pay1
  rw [x_block, w_block]
  dsimp only
  rw [shapeCast_self, matmul_zero_eq_dotGeneral]
  rfl

/-! ## Point t writes back block t of the result -/

/-- The output block of point t at (r, n) is the result at (512 t + r, n). -/
theorem out_at (c : Dev nD) (t : Fin cfg0.N) (j : S512x256.Idx) (i : S4096x256.Idx)
    (h0 : (i 0).val = 512 * t.val + (j 0).val) (h1 : (i 1).val = (j 1).val) :
    outBlock m c t j = result m c i := by
  unfold outBlock result
  rw [block_product_apply, Cert.ReferenceIdeal.Read.val_main_v1_apply]
  refine Finset.sum_congr rfl fun k _ => ?_
  rw [adj_block_at m c t (rowAt j k) (Cert.ReferenceIdeal.Read.lidx_main_v1 i k) h0 rfl, support_eq]
  exact congrArg (fun z => adjArr m c (Cert.ReferenceIdeal.Read.lidx_main_v1 i k) * Cert.ReferenceIdeal.Read.val_main_v0 (F := Ideal) (xArr m c) (wArr m c) z)
    (funext fun a => Fin.ext (by
      match a with
      | ⟨0, _⟩ => rfl
      | ⟨1, _⟩ => exact h1.symm))

theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after3]
  obtain ⟨-, -, e0, e1⟩ := idx_facts t
  funext j
  show outBlock m c t j = result m c (((cfg0.win 3).blk t).view.emb j)
  refine out_at m c t j _ ?_ ?_
  · show win0_3.index t (0 : Fin 2) * 512 + 1 * (j 0).val = 512 * t.val + (j 0).val; rw [e0]; omega
  · show win0_3.index t (1 : Fin 2) * 256 + 1 * (j 1).val = (j 1).val; rw [e1]; omega

/-! ## The eight blocks tile the result array -/

theorem mem_blk (t : Fin cfg0.N) (i : S4096x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v0).slice (win0_3.rect t)).set ↔ _
  rw [View.set_slice_whole, Rect.mem_set_unit]
  exact Iff.rfl

/-- Row i of the result lies in block i / 512. -/
theorem cover (i : S4096x256.Idx) : ∃ t : Fin cfg0.N, (cfg0.win 3).flush t = true ∧ i ∈ ((cfg0.win 3).blk t).view.set := by
  have hi0 : (i 0).val < 4096 := (i 0).isLt
  have hi1 : (i 1).val < 256 := (i 1).isLt
  have hN : cfg0.N = 8 := N_0
  let t : Fin cfg0.N := ⟨(i 0).val / 512, by rw [hN]; omega⟩
  obtain ⟨-, -, e0, e1⟩ := idx_facts t
  have ht : t.val = (i 0).val / 512 := rfl
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 256 ≤ (i 1).val ∧ (i 1).val < win0_3.index t (1 : Fin 2) * 256 + 256; rw [e1]; omega

/-- The result array after the run. -/
theorem final (c : Dev nD) : (dats m 0 c).arrAt 3 cfg0.N = result m c :=
  (dats m 0 c).arrAt_eq_of_cover 3 (result m c) (fun t _ => flushed_eq m c t) cover

/-! ## The run, read -/

/-- Every weakly fair execution of the idealized kernel's program terminates with the result array at adj · (x · W) of the
    argument arrays and the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.lean ====
/-
  The certificate of the graph-convolution layer out = adj · (x · W) (x 4096 x 256, adj 4096 x 4096, W 256 x 256): a Pallas
  kernel on an 8 x 1 grid against jnp's two matrix products.

  The kernel forms x · W once, at the first grid point, and keeps it in a buffer that lives across points; at point t it
  multiplies block row t (512 rows) of adj by the kept product and stores the 512 x 256 result block. Its frame, at the
  word-level instance and at the exact one, is the same argument: two Hoare triples for the body (first point, later
  points), the invariant "after the first point the kept buffer holds x · W", and the launch of the one pallas_call.

  Over the extended reals a matrix product into a zero accumulator is the plain sum of products, the same as the host's
  dot_general, so the kernel's result array and the reference's are one function of the arguments index by index:
  out[i, n] = ∑ k, adj[i, k] * ∑ j, x[k, j] * W[j, n]. No law of arithmetic is needed beyond 0 + a = a, and the
  finiteness of the inputs is not used. The ideal pass rewrote nothing, so the idealization claim is trivial.
-/
import proofs.«135409_g67791763800670_cont_sun_m_1117_6_alg».proof.Defs
import proofs.«135409_g67791763800670_cont_sun_m_1117_6_alg».proof.Proof.Gen.Kernel
import proofs.«135409_g67791763800670_cont_sun_m_1117_6_alg».proof.Proof.Gen.KernelIdeal
import proofs.«135409_g67791763800670_cont_sun_m_1117_6_alg».proof.Proof.Gen.ReferenceIdeal
import proofs.«135409_g67791763800670_cont_sun_m_1117_6_alg».proof.Proof.Gen.ReferenceIdeal.Run
import proofs.«135409_g67791763800670_cont_sun_m_1117_6_alg».proof.Proof.Gen.ReferenceIdeal.Read
import proofs.«135409_g67791763800670_cont_sun_m_1117_6_alg».proof.Proof.Gen.Pre_finite_inputs
import proofs.«135409_g67791763800670_cont_sun_m_1117_6_alg».proof.Proof.WordFrame
import proofs.«135409_g67791763800670_cont_sun_m_1117_6_alg».proof.Proof.IdealFrame
import proofs.«135409_g67791763800670_cont_sun_m_1117_6_alg».proof.Proof.IdealValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Body.frame (F := Bits) m ρ

/-- So does its idealization. -/
theorem frame_kernel_ideal : Cert.frame_KernelIdeal := fun m ρ _ => Cert.KernelIdeal.Body.frame (F := Ideal) m ρ

/-- The reference is two host operations; its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on x, adj and W both programs end with adj · (x · W) in their result arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
